-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x1024 .f32) (main_arg5 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096x1024 .f32) (main_arg5 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S1x4096 : Shape := ⟨2, ![1, 4096]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096x1024, .bf16⟩
  | .hbm, ⟨7, _⟩ => ⟨S4096x1024, .bf16⟩
  | .hbm, ⟨8, _⟩ => ⟨S1x4096, .f32⟩
  | .hbm, ⟨9, _⟩ => ⟨S8192x1024, .f32⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S1024x1024_1024_0 : ∀ a, (![1024, 0] : Fin 2 → Nat) a + S1024x1024.size a ≤ S4096x1024.size a
  h_S1024x1024 : 0 < S1024x1024.numel
  shapeCasts_S1024x1024_S1024x1024 : S1024x1024.ShapeCasts S1024x1024
  inb_S1x4096_S1x1024_0_1024 : ∀ a, (![0, 1024] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S4096x1024_S1024x1024_0_0 : ∀ a, (![0, 0] : Fin 2 → Nat) a + S1024x1024.size a ≤ S4096x1024.size a
  inb_S1x4096_S1x1024_0_0 : ∀ a, (![0, 0] : Fin 2 → Nat) a + S1x1024.size a ≤ S1x4096.size a
  inb_S4096x1024_S1024x1024_3072_0 : ∀ a, (![3072, 0] : Fin 2 → Nat) a + S1024x1024.size a ≤ S4096x1024.size a
  inb_S1x4096_S1x1024_0_3072 : ∀ a, (![0, 3072] : Fin 2 → Nat) a + S1x1024.size a ≤ S1x4096.size a
  inb_S4096x1024_S1024x1024_2048_0 : ∀ a, (![2048, 0] : Fin 2 → Nat) a + S1024x1024.size a ≤ S4096x1024.size a
  inb_S1x4096_S1x1024_0_2048 : ∀ a, (![0, 2048] : Fin 2 → Nat) a + S1x1024.size a ≤ S1x4096.size a
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S1024x4096, .f32⟩
  | .hbm, ⟨7, _⟩ => ⟨S8192x4096, .f32⟩
  | .hbm, ⟨8, _⟩ => ⟨S1024x4096, .f32⟩
  | .hbm, ⟨9, _⟩ => ⟨S8192x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LstmSpec.lean ====
/-
  One step of an LSTM cell, as a function of its arguments, entry by entry, on the extended reals.

  For a batch row `r` and a gate unit `j` (the four gates' units stacked: input gate `0 … 1023`, forget gate
  `1024 … 2047`, output gate `2048 … 3071`, candidate `3072 … 4095`) the pre-activation is
      (Σ_k x[r, k] · Wx[j, k]  +  Σ_k h[r, k] · Wh[j, k])  +  b[j],
  the two inner products added first and the bias last. With σ the logistic function, for a hidden unit `q`:
      c'[r, q] = σ(pre[r, 1024 + q]) · c[r, q] + σ(pre[r, q]) · tanh(pre[r, 3072 + q])
      h'[r, q] = σ(pre[r, 2048 + q]) · tanh(c'[r, q]).
  The number of batch rows is a parameter: the same definitions serve a block of rows and the whole batch, and an
  entry of either depends on its own row of `x`, `h` and `c` only (`newCell_rows`, `newHidden_rows`).
-/
import Idealize.ShloMosaic.PureOps.Ideal
import Idealize.ShloMosaic.Lib.ValueIdx

noncomputable section

open scoped BigOperators

namespace Cert.LstmCell

open Idealize.ShloMosaic Idealize.ShloMosaic.ValueIdx

/-- The gates' units, stacked in the order input, forget, output, candidate. -/
def unitI (q : Fin 1024) : Fin 4096 := ⟨q.val, by have := q.isLt; omega⟩
def unitF (q : Fin 1024) : Fin 4096 := ⟨1024 + q.val, by have := q.isLt; omega⟩
def unitO (q : Fin 1024) : Fin 4096 := ⟨2048 + q.val, by have := q.isLt; omega⟩
def unitG (q : Fin 1024) : Fin 4096 := ⟨3072 + q.val, by have := q.isLt; omega⟩

/-- A bias vector `[4096]` as a function of the gate unit. -/
abbrev biasOf (b : (⟨1, ![4096]⟩ : Shape).Idx → EReal) : Fin 4096 → EReal := fun j => b (ix1 j)

/-- A bias row `[1, 4096]` as a function of the gate unit. -/
abbrev biasRow (b : (⟨2, ![1, 4096]⟩ : Shape).Idx → EReal) : Fin 4096 → EReal := fun j => b (ix2 (0 : Fin 1) j)

variable {R : Nat}

/-- The pre-activation of gate unit `j` at row `r`: the two inner products added, then the bias. -/
def preact (x h : (⟨2, ![R, 1024]⟩ : Shape).Idx → EReal) (wx wh : (⟨2, ![4096, 1024]⟩ : Shape).Idx → EReal)
    (b : Fin 4096 → EReal) (r : Fin R) (j : Fin 4096) : EReal :=
  (∑ k : Fin 1024, x (ix2 r k) * wx (ix2 j k) + ∑ k : Fin 1024, h (ix2 r k) * wh (ix2 j k)) + b j

/-- The new cell state at `(r, q)`: forget gate times the old state, plus input gate times the candidate. -/
def newCell (x h c : (⟨2, ![R, 1024]⟩ : Shape).Idx → EReal) (wx wh : (⟨2, ![4096, 1024]⟩ : Shape).Idx → EReal)
    (b : Fin 4096 → EReal) (r : Fin R) (q : Fin 1024) : EReal :=
  Ideal.logistic (preact x h wx wh b r (unitF q)) * c (ix2 r q)
    + Ideal.logistic (preact x h wx wh b r (unitI q)) * Ideal.tanh (preact x h wx wh b r (unitG q))

/-- The new hidden state at `(r, q)`: output gate times the hyperbolic tangent of the new cell state. -/
def newHidden (x h c : (⟨2, ![R, 1024]⟩ : Shape).Idx → EReal) (wx wh : (⟨2, ![4096, 1024]⟩ : Shape).Idx → EReal)
    (b : Fin 4096 → EReal) (r : Fin R) (q : Fin 1024) : EReal :=
  Ideal.logistic (preact x h wx wh b r (unitO q)) * Ideal.tanh (newCell x h c wx wh b r q)

/-- The new cell state as an array. -/
def cellArr (x h c : (⟨2, ![R, 1024]⟩ : Shape).Idx → EReal) (wx wh : (⟨2, ![4096, 1024]⟩ : Shape).Idx → EReal)
    (b : Fin 4096 → EReal) : (⟨2, ![R, 1024]⟩ : Shape).Idx → EReal :=
  fun i => newCell x h c wx wh b (i 0) (i 1)

/-- The new hidden state as an array. -/
def hiddenArr (x h c : (⟨2, ![R, 1024]⟩ : Shape).Idx → EReal) (wx wh : (⟨2, ![4096, 1024]⟩ : Shape).Idx → EReal)
    (b : Fin 4096 → EReal) : (⟨2, ![R, 1024]⟩ : Shape).Idx → EReal :=
  fun i => newHidden x h c wx wh b (i 0) (i 1)

theorem cellArr_ix2 (x h c : (⟨2, ![R, 1024]⟩ : Shape).Idx → EReal) (wx wh : (⟨2, ![4096, 1024]⟩ : Shape).Idx → EReal)
    (b : Fin 4096 → EReal) (r : Fin R) (q : Fin 1024) :
    cellArr x h c wx wh b (ix2 r q) = newCell x h c wx wh b r q := rfl

theorem hiddenArr_ix2 (x h c : (⟨2, ![R, 1024]⟩ : Shape).Idx → EReal) (wx wh : (⟨2, ![4096, 1024]⟩ : Shape).Idx → EReal)
    (b : Fin 4096 → EReal) (r : Fin R) (q : Fin 1024) :
    hiddenArr x h c wx wh b (ix2 r q) = newHidden x h c wx wh b r q := rfl

/-! ## An entry depends on its own row only -/

variable {R' : Nat}

/-- Row `r` of `x`, `h` agreeing with row `r'` of `x'`, `h'`, the pre-activations agree. -/
theorem preact_rows {x h : (⟨2, ![R, 1024]⟩ : Shape).Idx → EReal} {x' h' : (⟨2, ![R', 1024]⟩ : Shape).Idx → EReal}
    (wx wh : (⟨2, ![4096, 1024]⟩ : Shape).Idx → EReal) (b : Fin 4096 → EReal) {r : Fin R} {r' : Fin R'}
    (hx : ∀ k : Fin 1024, x (ix2 r k) = x' (ix2 r' k)) (hh : ∀ k : Fin 1024, h (ix2 r k) = h' (ix2 r' k)) (j : Fin 4096) :
    preact x h wx wh b r j = preact x' h' wx wh b r' j := by
  unfold preact
  simp only [hx, hh]

theorem newCell_rows {x h c : (⟨2, ![R, 1024]⟩ : Shape).Idx → EReal} {x' h' c' : (⟨2, ![R', 1024]⟩ : Shape).Idx → EReal}
    (wx wh : (⟨2, ![4096, 1024]⟩ : Shape).Idx → EReal) (b : Fin 4096 → EReal) {r : Fin R} {r' : Fin R'}
    (hx : ∀ k : Fin 1024, x (ix2 r k) = x' (ix2 r' k)) (hh : ∀ k : Fin 1024, h (ix2 r k) = h' (ix2 r' k))
    (q : Fin 1024) (hc : c (ix2 r q) = c' (ix2 r' q)) :
    newCell x h c wx wh b r q = newCell x' h' c' wx wh b r' q := by
  unfold newCell
  rw [preact_rows wx wh b hx hh, preact_rows wx wh b hx hh, preact_rows wx wh b hx hh, hc]

theorem newHidden_rows {x h c : (⟨2, ![R, 1024]⟩ : Shape).Idx → EReal} {x' h' c' : (⟨2, ![R', 1024]⟩ : Shape).Idx → EReal}
    (wx wh : (⟨2, ![4096, 1024]⟩ : Shape).Idx → EReal) (b : Fin 4096 → EReal) {r : Fin R} {r' : Fin R'}
    (hx : ∀ k : Fin 1024, x (ix2 r k) = x' (ix2 r' k)) (hh : ∀ k : Fin 1024, h (ix2 r k) = h' (ix2 r' k))
    (q : Fin 1024) (hc : c (ix2 r q) = c' (ix2 r' q)) :
    newHidden x h c wx wh b r q = newHidden x' h' c' wx wh b r' q := by
  unfold newHidden
  rw [preact_rows wx wh b hx hh, newCell_rows wx wh b hx hh q hc]

end Cert.LstmCell

end
-- ==== Proof.RefGates.lean ====
/-
  The reference program, read entry by entry: its stacked gate pre-activations `x · Wxᵀ + h · Whᵀ + b` are the
  specification's `preact`, its four column slices are the four gates' units, its `1 / (1 + exp (−z))` is the
  logistic function, and so its two results are the specification's new hidden state and new cell state.
-/
import proofs.«422115_j49967649521796_3_alg».proof.Proof.Gen.ReferenceIdeal.Read
import proofs.«422115_j49967649521796_3_alg».proof.Proof.LstmSpec
import Idealize.ShloMosaic.Lib.IdealHost

noncomputable section

open scoped BigOperators

namespace Cert.LstmCell.Ref

open Cert.ReferenceIdeal Cert.ReferenceIdeal.Read Idealize.ShloMosaic Idealize.ShloMosaic.ValueIdx Cert.LstmCell

variable (x0 x1 x2 : S8192x1024.Idx → EReal) (x3 x4 : S4096x1024.Idx → EReal) (x5 : S4096.Idx → EReal)

/-! ## The index maps of the reference's layout operations, at coordinates -/

theorem lrow1 (r : Fin 8192) (j : Fin 4096) (k : Fin 1024) : lidx_main_v1 (ix2 r j) k = ix2 r k :=
  funext fun a => by match a with | ⟨0, _⟩ => rfl | ⟨1, _⟩ => rfl

theorem rrow1 (r : Fin 8192) (j : Fin 4096) (k : Fin 1024) : idx_main_v0 (ridx_main_v1 (ix2 r j) k) = ix2 j k :=
  funext fun a => by match a with | ⟨0, _⟩ => rfl | ⟨1, _⟩ => rfl

theorem lrow3 (r : Fin 8192) (j : Fin 4096) (k : Fin 1024) : lidx_main_v3 (ix2 r j) k = ix2 r k :=
  funext fun a => by match a with | ⟨0, _⟩ => rfl | ⟨1, _⟩ => rfl

theorem rrow3 (r : Fin 8192) (j : Fin 4096) (k : Fin 1024) : idx_main_v2 (ridx_main_v3 (ix2 r j) k) = ix2 j k :=
  funext fun a => by match a with | ⟨0, _⟩ => rfl | ⟨1, _⟩ => rfl

theorem bcol (r : Fin 8192) (j : Fin 4096) : idx_main_v5 (idx_main_v6 (ix2 r j)) = ix1 j :=
  funext fun a => by match a with | ⟨0, _⟩ => rfl

theorem sliceI (r : Fin 8192) (q : Fin 1024) : idx_main_v8 (ix2 r q) = ix2 r (unitI q) :=
  funext fun a => by match a with | ⟨0, _⟩ => rfl | ⟨1, _⟩ => rfl

theorem sliceF (r : Fin 8192) (q : Fin 1024) : idx_main_v9 (ix2 r q) = ix2 r (unitF q) :=
  funext fun a => by match a with | ⟨0, _⟩ => rfl | ⟨1, _⟩ => rfl

theorem sliceO (r : Fin 8192) (q : Fin 1024) : idx_main_v10 (ix2 r q) = ix2 r (unitO q) :=
  funext fun a => by match a with | ⟨0, _⟩ => rfl | ⟨1, _⟩ => rfl

theorem sliceG (r : Fin 8192) (q : Fin 1024) : idx_main_v11 (ix2 r q) = ix2 r (unitG q) :=
  funext fun a => by match a with | ⟨0, _⟩ => rfl | ⟨1, _⟩ => rfl

/-! ## The stacked pre-activations -/

/-- Entry `(r, j)` of `x · Wxᵀ + h · Whᵀ + b` is the pre-activation of unit `j` at row `r`. -/
theorem gates_apply (r : Fin 8192) (j : Fin 4096) :
    val_main_v7 (F := Ideal) x0 x1 x3 x4 x5 (ix2 r j) = preact x0 x1 x3 x4 (biasOf x5) r j := by
  rw [val_main_v7_apply, val_main_v4_apply, val_main_v1_apply, val_main_v3_apply, val_main_v6_apply, val_main_v5_apply]
  simp only [val_main_v0_apply, val_main_v2_apply, lrow1, rrow1, lrow3, rrow3, bcol]
  rfl

/-! ## The logistic function, spelt with a negation, an exponential, a sum and a quotient -/

theorem logistic_spelt (z : EReal) :
    Ideal.div (Ideal.ofBits .f32 0x3F800000#32) (Ideal.ofBits .f32 0x3F800000#32 + Ideal.exp (-z)) = Ideal.logistic z := by
  rw [Ideal.ofBits_one_f32]; rfl

/-- The forget gate. -/
theorem forget_apply (r : Fin 8192) (q : Fin 1024) :
    val_main_v17 (F := Ideal) x0 x1 x3 x4 x5 (ix2 r q) = Ideal.logistic (preact x0 x1 x3 x4 (biasOf x5) r (unitF q)) := by
  rw [val_main_v17_apply, val_main_v16_apply, val_main_cst_0_apply, val_main_v15_apply, val_main_v14_apply, val_main_cst_apply,
    val_main_v13_apply, val_main_v12_apply, val_main_v9_apply, sliceF, gates_apply]
  exact logistic_spelt _

/-- The input gate. -/
theorem input_apply (r : Fin 8192) (q : Fin 1024) :
    val_main_v24 (F := Ideal) x0 x1 x3 x4 x5 (ix2 r q) = Ideal.logistic (preact x0 x1 x3 x4 (biasOf x5) r (unitI q)) := by
  rw [val_main_v24_apply, val_main_v23_apply, val_main_cst_2_apply, val_main_v22_apply, val_main_v21_apply, val_main_cst_1_apply,
    val_main_v20_apply, val_main_v19_apply, val_main_v8_apply, sliceI, gates_apply]
  exact logistic_spelt _

/-- The output gate. -/
theorem output_apply (r : Fin 8192) (q : Fin 1024) :
    val_main_v33 (F := Ideal) x0 x1 x3 x4 x5 (ix2 r q) = Ideal.logistic (preact x0 x1 x3 x4 (biasOf x5) r (unitO q)) := by
  rw [val_main_v33_apply, val_main_v32_apply, val_main_cst_4_apply, val_main_v31_apply, val_main_v30_apply, val_main_cst_3_apply,
    val_main_v29_apply, val_main_v28_apply, val_main_v10_apply, sliceO, gates_apply]
  exact logistic_spelt _

/-- The candidate. -/
theorem candidate_apply (r : Fin 8192) (q : Fin 1024) :
    val_main_v25 (F := Ideal) x0 x1 x3 x4 x5 (ix2 r q) = Ideal.tanh (preact x0 x1 x3 x4 (biasOf x5) r (unitG q)) := by
  rw [val_main_v25_apply, val_main_v11_apply, sliceG, gates_apply]
  rfl

/-! ## The two results -/

/-- The reference's new cell state is the specification's. -/
theorem cell_eq : val_main_v27 (F := Ideal) x0 x1 x2 x3 x4 x5 = cellArr x0 x1 x2 x3 x4 (biasOf x5) := by
  funext i
  obtain ⟨r, q, rfl⟩ : ∃ (r : Fin 8192) (q : Fin 1024), i = ix2 r q := ⟨i 0, i 1, eq_ix2 i⟩
  rw [val_main_v27_apply, val_main_v18_apply, val_main_v26_apply, forget_apply, input_apply, candidate_apply, cellArr_ix2]
  rfl

/-- The reference's new hidden state is the specification's. -/
theorem hidden_eq : val_main_v35 (F := Ideal) x0 x1 x2 x3 x4 x5 = hiddenArr x0 x1 x2 x3 x4 (biasOf x5) := by
  funext i
  obtain ⟨r, q, rfl⟩ : ∃ (r : Fin 8192) (q : Fin 1024), i = ix2 r q := ⟨i 0, i 1, eq_ix2 i⟩
  rw [val_main_v35_apply, val_main_v34_apply, output_apply, cell_eq, cellArr_ix2, hiddenArr_ix2]
  rfl

end Cert.LstmCell.Ref

end
-- ==== Proof.LibDotRows.lean ====
/-
  The matrix unit's product of an `[R, K]` matrix with the TRANSPOSE of a `[C, K]` matrix — both operands contracted
  on their second axis — into a zero accumulator, read at an entry, at the extended reals: entry `(r, c)` is the sum
  over `k` of `x (r, k) · g (c, k)`, the inner product of row `r` of the left operand with row `c` of the right one.
-/
import Idealize.ShloMosaic.PureOps.Ideal
import Idealize.ShloMosaic.PureOps.Ideal.Laws
import Idealize.ShloMosaic.Lib.ValueIdx

noncomputable section

open scoped BigOperators

namespace Cert.DotRows

open Idealize.ShloMosaic Idealize.ShloMosaic.ValueIdx

/-- The dimension numbers of rows against rows: contract the left operand's axis 1 with the right operand's axis 1. -/
abbrev rr (R K C : Nat) (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ := ⟨[1], [1], [0], [0], [], [], wf⟩

/-- The left operand's index on axis 0 is the result index's row. -/
theorem lhs_0 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).lhsIdx j q 0).val = (j 0).val := by
  unfold DotDims.lhsIdx
  rw [dif_neg (show ¬(0 : Fin (⟨2, ![R, K]⟩ : Shape).rank) ∈ (rr R K C wf).lhsBatch from List.not_mem_nil),
    dif_pos (show (0 : Fin (⟨2, ![R, K]⟩ : Shape).rank) ∈ (rr R K C wf).lhsNonContracting from List.mem_singleton.mpr rfl)]
  rfl

/-- The left operand's index on axis 1 is the contraction position's one coordinate. -/
theorem lhs_1 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).lhsIdx j q 1).val = (q ⟨0, Nat.one_pos⟩).val :=
  (rr R K C wf).lhsIdx_val_of_single rfl j q

/-- The right operand's index on axis 0 is the result index's column. -/
theorem rhs_0 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).rhsIdx j q 0).val = (j 1).val := by
  unfold DotDims.rhsIdx
  rw [dif_neg (show ¬(0 : Fin (⟨2, ![C, K]⟩ : Shape).rank) ∈ (rr R K C wf).rhsBatch from List.not_mem_nil),
    dif_pos (show (0 : Fin (⟨2, ![C, K]⟩ : Shape).rank) ∈ (rr R K C wf).rhsNonContracting from List.mem_singleton.mpr rfl)]
  rfl

/-- The right operand's index on axis 1 is the contraction position's one coordinate. -/
theorem rhs_1 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).rhsIdx j q 1).val = (q ⟨0, Nat.one_pos⟩).val :=
  (rr R K C wf).rhsIdx_val_of_single rfl j q

/-- THE PRODUCT AT `(r, c)`: into a zero accumulator, the inner product of the operands' rows `r` and `c`. -/
theorem matmul_zero_apply {R K C : Nat} {φ₁ φ₂ : FTy}
    (wf : DotDims.WF ⟨2, ![R, K]⟩ ⟨2, ![C, K]⟩ ⟨2, ![R, C]⟩ [1] [1] [0] [0] [] [])
    (prec : Option ContractPrecision) (x : FVec Ideal ⟨2, ![R, K]⟩ φ₁) (g : FVec Ideal ⟨2, ![C, K]⟩ φ₂) (r : Fin R) (c : Fin C) :
    matmul (rr R K C wf) prec x g (constant (F := Ideal) ⟨2, ![R, C]⟩ .f32 0x00000000#32) (ix2 r c)
      = ∑ k : Fin K, x (ix2 r k) * g (ix2 c k) := by
  refine (Ideal.matmul_constant_zero_apply (rr R K C wf) prec x g (ix2 r c)).trans ?_
  rw [← Equiv.sum_comp (contrEquiv1 (rr R K C wf) K rfl rfl).symm]
  refine Finset.sum_congr rfl fun k _ => ?_
  have hk := contrEquiv1_symm_val (rr R K C wf) K rfl rfl k
  have el : (rr R K C wf).lhsIdx (ix2 r c) ((contrEquiv1 (rr R K C wf) K rfl rfl).symm k) = ix2 r k :=
    funext fun a => Fin.ext (by
      match a with
      | ⟨0, _⟩ => exact lhs_0 wf _ _
      | ⟨1, _⟩ => exact (lhs_1 wf _ _).trans hk)
  have er : (rr R K C wf).rhsIdx (ix2 r c) ((contrEquiv1 (rr R K C wf) K rfl rfl).symm k) = ix2 c k :=
    funext fun a => Fin.ext (by
      match a with
      | ⟨0, _⟩ => exact rhs_0 wf _ _
      | ⟨1, _⟩ => exact (rhs_1 wf _ _).trans hk)
  rw [el, er]

end Cert.DotRows

end
-- ==== Proof.KernelBlock.lean ====
/-
  What the kernel's body leaves in its two output blocks, entry by entry, on the extended reals. A block is 256
  batch rows. The body casts the rows of `x` and `h` to bf16 (the identity on extended reals), and for each gate takes
  the 1024 rows of the two weight matrices that are the gate's units — rows `1024 … 2047` for the forget gate,
  `0 … 1023` for the input gate, `3072 … 4095` for the candidate, `2048 … 3071` for the output gate — multiplies the
  block by their transposes on the matrix unit into a zero accumulator, adds the two products, then the bias row's
  matching 1024 lanes broadcast over the rows. So each gate's pre-activation is the specification's `preact` over the
  block's rows, and the two stored values are the specification's new cell state and new hidden state of the block.
-/
import proofs.«422115_j49967649521796_3_alg».proof.Proof.Gen.KernelIdeal.Frame
import proofs.«422115_j49967649521796_3_alg».proof.Proof.LstmSpec
import proofs.«422115_j49967649521796_3_alg».proof.Proof.LibDotRows
import Idealize.ShloMosaic.Lib.Pipeline.Value
import Idealize.ShloMosaic.Lib.ValueLayout

noncomputable section

open scoped BigOperators

namespace Cert.LstmCell.Kern

open Cert.KernelIdeal Cert.KernelIdeal.Gen Idealize.ShloMosaic Idealize.ShloMosaic.TcCoe Idealize.ShloMosaic.ValueIdx Cert.LstmCell

/-! ## The matrix unit's product at an entry -/

/-- A block of rows times the transpose of a 1024-row slab of weights, into a zero accumulator: entry `(p, q)` is the
    inner product of row `p` of the block with row `q` of the slab. -/
theorem slab_product (a : FVec Ideal S256x1024 .bf16) (w : FVec Ideal S1024x1024 .bf16) (p : Fin 256) (q : Fin 1024) :
    matmul dot_S256x1024_S1024x1024_S256x1024_1_1_0_0_n_n none a w (constant (F := Ideal) S256x1024 .f32 0x00000000#32) (ix2 p q)
      = ∑ k : Fin 1024, a (ix2 p k) * w (ix2 q k) :=
  Cert.DotRows.matmul_zero_apply dot_S256x1024_S1024x1024_S256x1024_1_1_0_0_n_n_wf none a w p q

/-! ## The slabs: 1024 rows of a weight matrix, 1024 lanes of the bias row -/

/-- The 1024 rows from row `off` of a `[4096, 1024]` matrix: row `a` of the slab is row `off + a` of the matrix. -/
theorem slab_rows (off : Nat) (inb : ∀ a, (![off, 0] : Fin 2 → Nat) a + S1024x1024.size a ≤ S4096x1024.size a)
    (w : S4096x1024.Idx → EReal) (a k : Fin 1024) (j : Fin 4096) (hj : j.val = off + a.val) :
    View.ld (Val := Elt Ideal) (e' := .bf16) w (Rect.unit (s := S4096x1024) ![off, 0] S1024x1024.size inb) (ix2 a k) = w (ix2 j k) := by
  show w _ = w _
  refine congrArg w (funext fun ax => Fin.ext ?_)
  match ax with
  | ⟨0, _⟩ => show off + 1 * a.val = j.val; omega
  | ⟨1, _⟩ => show 0 + 1 * k.val = k.val; omega

/-- The 1024 lanes from lane `off` of the `[1, 4096]` bias row: lane `q` of the piece is lane `off + q` of the row. -/
theorem slab_lanes (off : Nat) (inb : ∀ a, (![0, off] : Fin 2 → Nat) a + S1x1024.size a ≤ S1x4096.size a)
    (b : S1x4096.Idx → EReal) (q : Fin 1024) (j : Fin 4096) (hj : j.val = off + q.val) :
    View.ld (Val := Elt Ideal) (e' := .f32) b (Rect.unit (s := S1x4096) ![0, off] S1x1024.size inb) (ix2 (0 : Fin 1) q) = b (ix2 (0 : Fin 1) j) := by
  show b _ = b _
  refine congrArg b (funext fun ax => Fin.ext ?_)
  match ax with
  | ⟨0, _⟩ => rfl
  | ⟨1, _⟩ => show off + 1 * q.val = j.val; omega

/-! ## One gate's pre-activation -/

/-- The body's pre-activation of one gate from a block of `x`, a block of `h`, the gate's two weight slabs and its bias
    lanes: at `(p, q)` the two inner products added, then the bias lane `q`. -/
theorem gate_pre (x h : FVec Ideal S256x1024 .f32) (wxs whs : FVec Ideal S1024x1024 .bf16) (bs : FVec Ideal S1x1024 .f32)
    (p : Fin 256) (q : Fin 1024) :
    addf (addf (matmul dot_S256x1024_S1024x1024_S256x1024_1_1_0_0_n_n none (truncf .bf16 x bitsLt_bf16_f32)
                  (shapeCast S1024x1024 wxs shapeCasts_S1024x1024_S1024x1024) (constant (F := Ideal) S256x1024 .f32 0x00000000#32))
               (matmul dot_S256x1024_S1024x1024_S256x1024_1_1_0_0_n_n none (truncf .bf16 h bitsLt_bf16_f32)
                  (shapeCast S1024x1024 whs shapeCasts_S1024x1024_S1024x1024) (constant (F := Ideal) S256x1024 .f32 0x00000000#32)))
         (broadcastTo S256x1024 (shapeCast S1x1024 bs shapeCasts_S1x1024_S1x1024) broadcasts_S1x1024_S256x1024) (ix2 p q)
      = (∑ k : Fin 1024, x (ix2 p k) * wxs (ix2 q k) + ∑ k : Fin 1024, h (ix2 p k) * whs (ix2 q k)) + bs (ix2 (0 : Fin 1) q) := by
  rw [addf_apply, addf_apply, shapeCast_self, shapeCast_self, shapeCast_self, slab_product, slab_product,
    broadcastTo_1b_ab_apply]
  rfl

/-! ## The gates' slabs, named by the gate -/

theorem wslabF (w : S4096x1024.Idx → EReal) (a k : Fin 1024) :
    View.ld (Val := Elt Ideal) (e' := .bf16) w r0_1 (ix2 a k) = w (ix2 (unitF a) k) := slab_rows 1024 _ w a k (unitF a) rfl
theorem wslabI (w : S4096x1024.Idx → EReal) (a k : Fin 1024) :
    View.ld (Val := Elt Ideal) (e' := .bf16) w r0_3 (ix2 a k) = w (ix2 (unitI a) k) := slab_rows 0 _ w a k (unitI a) (by show a.val = 0 + a.val; omega)
theorem wslabG (w : S4096x1024.Idx → EReal) (a k : Fin 1024) :
    View.ld (Val := Elt Ideal) (e' := .bf16) w r0_5 (ix2 a k) = w (ix2 (unitG a) k) := slab_rows 3072 _ w a k (unitG a) rfl
theorem wslabO (w : S4096x1024.Idx → EReal) (a k : Fin 1024) :
    View.ld (Val := Elt Ideal) (e' := .bf16) w r0_7 (ix2 a k) = w (ix2 (unitO a) k) := slab_rows 2048 _ w a k (unitO a) rfl

theorem bslabF (b : S1x4096.Idx → EReal) (q : Fin 1024) :
    View.ld (Val := Elt Ideal) (e' := .f32) b r0_2 (ix2 (0 : Fin 1) q) = biasRow b (unitF q) := slab_lanes 1024 _ b q (unitF q) rfl
theorem bslabI (b : S1x4096.Idx → EReal) (q : Fin 1024) :
    View.ld (Val := Elt Ideal) (e' := .f32) b r0_4 (ix2 (0 : Fin 1) q) = biasRow b (unitI q) := slab_lanes 0 _ b q (unitI q) (by show q.val = 0 + q.val; omega)
theorem bslabG (b : S1x4096.Idx → EReal) (q : Fin 1024) :
    View.ld (Val := Elt Ideal) (e' := .f32) b r0_6 (ix2 (0 : Fin 1) q) = biasRow b (unitG q) := slab_lanes 3072 _ b q (unitG q) rfl
theorem bslabO (b : S1x4096.Idx → EReal) (q : Fin 1024) :
    View.ld (Val := Elt Ideal) (e' := .f32) b r0_8 (ix2 (0 : Fin 1) q) = biasRow b (unitO q) := slab_lanes 2048 _ b q (unitO q) rfl

/-! ## The body's values at an entry -/

theorem tanh_at {s : Shape} (v : FVec Ideal s .f32) (i : s.Idx) : tanh v i = Ideal.tanh (v i) := rfl
theorem logistic_at {s : Shape} (v : FVec Ideal s .f32) (i : s.Idx) : logistic v i = Ideal.logistic (v i) := rfl

/-- The forget gate of a block: the logistic function of its pre-activation. -/
theorem forget_block (v0 v2 : FVec Ideal S256x1024 .f32) (v5 v7 : FVec Ideal S1024x1024 .bf16) (v9 : FVec Ideal S1x1024 .f32)
    (p : Fin 256) (q : Fin 1024) :
    k0_pay5 (F := Ideal) v0 v2 v5 v7 v9 (ix2 p q)
      = Ideal.logistic ((∑ k : Fin 1024, v0 (ix2 p k) * v5 (ix2 q k) + ∑ k : Fin 1024, v2 (ix2 p k) * v7 (ix2 q k)) + v9 (ix2 (0 : Fin 1) q)) := by
  unfold k0_pay5 k0_pay3 k0_pay4
  exact congrArg Ideal.logistic (gate_pre v0 v2 v5 v7 v9 p q)

/-- The input gate of a block. -/
theorem input_block (v0 v2 : FVec Ideal S256x1024 .f32) (v17 v19 : FVec Ideal S1024x1024 .bf16) (v21 : FVec Ideal S1x1024 .f32)
    (p : Fin 256) (q : Fin 1024) :
    k0_pay6 (F := Ideal) v0 v2 v17 v19 v21 (ix2 p q)
      = Ideal.logistic ((∑ k : Fin 1024, v0 (ix2 p k) * v17 (ix2 q k) + ∑ k : Fin 1024, v2 (ix2 p k) * v19 (ix2 q k)) + v21 (ix2 (0 : Fin 1) q)) := by
  unfold k0_pay6 k0_pay3 k0_pay4
  exact congrArg Ideal.logistic (gate_pre v0 v2 v17 v19 v21 p q)

/-- A gate's pre-activation over its slabs is the specification's: the slabs are the rows and lanes of the gate's units
    `u 0 … u 1023`. -/
theorem pre_of_slabs {x h : FVec Ideal S256x1024 .f32} {wx wh : S4096x1024.Idx → EReal} {b : S1x4096.Idx → EReal}
    {wxs whs : S1024x1024.Idx → EReal} {bs : S1x1024.Idx → EReal} {u : Fin 1024 → Fin 4096}
    (hwx : ∀ a k : Fin 1024, wxs (ix2 a k) = wx (ix2 (u a) k)) (hwh : ∀ a k : Fin 1024, whs (ix2 a k) = wh (ix2 (u a) k))
    (hb : ∀ q : Fin 1024, bs (ix2 (0 : Fin 1) q) = biasRow b (u q)) (p : Fin 256) (q : Fin 1024) :
    (∑ k : Fin 1024, x (ix2 p k) * wxs (ix2 q k) + ∑ k : Fin 1024, h (ix2 p k) * whs (ix2 q k)) + bs (ix2 (0 : Fin 1) q)
      = preact x h wx wh (biasRow b) p (u q) := by
  unfold preact
  simp only [hwx, hwh, hb]

theorem hz : (![0, 0] : Fin 2 → Nat) = fun _ => 0 := funext fun a => by fin_cases a <;> rfl

/-- The value the body stores to its second output, at `(p, q)`: forget gate times the old cell state plus input gate times
    the candidate — the specification's new cell state of the block's rows. -/
theorem cell_value (x0 x1 x2 : FVec Ideal S256x1024 .f32) (x3 x4 : S4096x1024.Idx → EReal) (x5 : S1x4096.Idx → EReal)
    (p : Fin 256) (q : Fin 1024) :
    k0_pay1 (F := Ideal) (k0_pay3 x0) (k0_pay4 x1) x2
        (k0_pay5 x0 x1 (View.ld (Val := Elt Ideal) (e' := .bf16) x3 r0_1) (View.ld (Val := Elt Ideal) (e' := .bf16) x4 r0_1) (View.ld (Val := Elt Ideal) (e' := .f32) x5 r0_2))
        (k0_pay6 x0 x1 (View.ld (Val := Elt Ideal) (e' := .bf16) x3 r0_3) (View.ld (Val := Elt Ideal) (e' := .bf16) x4 r0_3) (View.ld (Val := Elt Ideal) (e' := .f32) x5 r0_4))
        (k0_pay7 (View.ld (Val := Elt Ideal) (e' := .bf16) x3 r0_5)) (k0_pay8 (View.ld (Val := Elt Ideal) (e' := .bf16) x4 r0_5))
        (View.ld (Val := Elt Ideal) (e' := .f32) x5 r0_6) (ix2 p q)
      = newCell x0 x1 x2 x3 x4 (biasRow x5) p q := by
  unfold k0_pay1 k0_pay7 k0_pay8
  dsimp only
  unfold k0_pay3 k0_pay4
  dsimp only
  rw [addf_apply, mulf_apply, mulf_apply, tanh_at, forget_block, input_block, gate_pre,
    pre_of_slabs (x := x0) (h := x1) (u := unitF) (wslabF x3) (wslabF x4) (bslabF x5),
    pre_of_slabs (x := x0) (h := x1) (u := unitI) (wslabI x3) (wslabI x4) (bslabI x5),
    pre_of_slabs (x := x0) (h := x1) (u := unitG) (wslabG x3) (wslabG x4) (bslabG x5)]
  rfl

/-- THE NEW CELL STATE OF A BLOCK: what the body leaves in its second output block is the specification's new cell state
    of the block's rows. -/
theorem cell_block (x0 x1 x2 : FVec Ideal S256x1024 .f32) (x3 x4 : S4096x1024.Idx → EReal) (x5 : S1x4096.Idx → EReal) :
    out0_7 (F := Ideal) x0 x1 x2 x3 x4 x5 = cellArr x0 x1 x2 x3 x4 (biasRow x5) := by
  unfold out0_7
  rw [View.canon_unit_zero hz]
  simp only [View.ld_unit_zero (S := S256x1024) hz]
  funext i
  obtain ⟨p, q, rfl⟩ : ∃ (p : Fin 256) (q : Fin 1024), i = ix2 p q := ⟨i 0, i 1, eq_ix2 i⟩
  rw [cellArr_ix2]
  exact cell_value x0 x1 x2 x3 x4 x5 p q

/-- THE NEW HIDDEN STATE OF A BLOCK: what the body leaves in its first output block is the specification's new hidden state of
    the block's rows. -/
theorem hidden_block (x0 x1 x2 : FVec Ideal S256x1024 .f32) (x3 x4 : S4096x1024.Idx → EReal) (x5 : S1x4096.Idx → EReal) :
    out0_6 (F := Ideal) x0 x1 x2 x3 x4 x5 = hiddenArr x0 x1 x2 x3 x4 (biasRow x5) := by
  unfold out0_6
  rw [View.canon_unit_zero hz]
  simp only [View.ld_unit_zero (S := S256x1024) hz]
  funext i
  obtain ⟨p, q, rfl⟩ : ∃ (p : Fin 256) (q : Fin 1024), i = ix2 p q := ⟨i 0, i 1, eq_ix2 i⟩
  rw [hiddenArr_ix2]
  unfold k0_pay2
  rw [mulf_apply, logistic_at, tanh_at, cell_value]
  unfold k0_pay3 k0_pay4
  dsimp only
  rw [gate_pre, pre_of_slabs (x := x0) (h := x1) (u := unitO) (wslabO x3) (wslabO x4) (bslabO x5)]
  rfl

end Cert.LstmCell.Kern

end
-- ==== Proof.KernelArray.lean ====
/-
  From blocks to arrays. The kernel walks the batch in 32 blocks of 256 rows: at block `t` it reads rows
  `256 t … 256 t + 255` of `x`, `h` and `c`, the whole of the two weight matrices (cast to bf16 beforehand, which changes
  no extended real) and the whole bias (viewed as one row), and writes rows `256 t … 256 t + 255` of the two results.
  An entry of the specification depends on its own batch row only, so what block `t` writes is rows
  `256 t … 256 t + 255` of the specification's new hidden state and new cell state of the WHOLE arguments; the 32
  blocks cover every row (row `r` lies in block `r / 256`), so after the run the two result arrays are exactly those.
-/
import proofs.«422115_j49967649521796_3_alg».proof.Proof.Gen.KernelIdeal.Value
import proofs.«422115_j49967649521796_3_alg».proof.Proof.KernelBlock
import Idealize.ShloMosaic.Lib.StableHlo.Run

noncomputable section

open scoped BigOperators

namespace Cert.LstmCell.Arr

open Cert.KernelIdeal Cert.KernelIdeal.Gen Cert.KernelIdeal.Value Idealize.ShloMosaic Idealize.ShloMosaic.TcCoe Idealize.SL.Sem
open Idealize.ShloMosaic.ValueIdx Cert.LstmCell Cert.LstmCell.Kern
open Idealize.ShloMosaic.Pipeline (Dat)

variable (m : (ℓ : Loc nD τ sig) → Buf (Elt Ideal) ℓ) (ρ : Dev nD → PrngReg)

/-- The argument arrays. -/
abbrev argX (c : Dev nD) : S8192x1024.Idx → EReal := m ((c : Thread nD τ).loc main_arg0)
abbrev argH (c : Dev nD) : S8192x1024.Idx → EReal := m ((c : Thread nD τ).loc main_arg1)
abbrev argC (c : Dev nD) : S8192x1024.Idx → EReal := m ((c : Thread nD τ).loc main_arg2)
abbrev argWx (c : Dev nD) : S4096x1024.Idx → EReal := m ((c : Thread nD τ).loc main_arg3)
abbrev argWh (c : Dev nD) : S4096x1024.Idx → EReal := m ((c : Thread nD τ).loc main_arg4)
abbrev argB (c : Dev nD) : S4096.Idx → EReal := m ((c : Thread nD τ).loc main_arg5)

/-- The row-blocked windows (`x`, `h`, `c` and the two results) are at block `(t, 0)` at point `t`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The weights' and the bias's windows are at block `(0, 0)`, the whole array, at every point. -/
theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `p` of block `t` of `x` is row `256 t + p` of `x`. -/
theorem xblk_apply (c : Dev nD) (t : Fin cfg0.N) (p : Fin 256) (k : Fin 1024) (r : Fin 8192) (hr : r.val = 256 * t.val + p.val) :
    (iblk m c 0 t : Vec Ideal S256x1024 .f32) (ix2 p k) = argX m c (ix2 r k) := by
  obtain ⟨e0, e1, -⟩ := idx_rows t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- The kernel's first weight operand is `Wx` cast to bf16: the same extended reals. -/
theorem V_wx (c : Dev nD) : (V m c main_call0_v0 : S4096x1024.Idx → EReal) = argWx m c := by
  dsimp only [V, hostOps0]; after_results; rfl

/-- The kernel's second weight operand is `Wh` cast to bf16: the same extended reals. -/
theorem V_wh (c : Dev nD) : (V m c main_call0_v1 : S4096x1024.Idx → EReal) = argWh m c := by
  dsimp only [V, hostOps0]; after_results; rfl

/-- The kernel's bias operand is `b` viewed as one row of 4096 lanes. -/
theorem V_b (c : Dev nD) : (V m c main_call0_v2 : S1x4096.Idx → EReal) = shapeCast S1x4096 (argB m c) shapeCasts_S4096_S1x4096 := by
  dsimp only [V, hostOps0]; after_results; rfl

/-- Row `p` of block `t` of `h` is row `256 t + p` of `h`. -/
theorem hblk_apply (c : Dev nD) (t : Fin cfg0.N) (p : Fin 256) (k : Fin 1024) (r : Fin 8192) (hr : r.val = 256 * t.val + p.val) :
    (iblk m c 1 t : Vec Ideal S256x1024 .f32) (ix2 p k) = argH m c (ix2 r k) := by
  obtain ⟨-, -, e0, e1, -⟩ := idx_rows t
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega

/-- Row `p` of block `t` of `c` is row `256 t + p` of `c`. -/
theorem cblk_apply (c : Dev nD) (t : Fin cfg0.N) (p : Fin 256) (k : Fin 1024) (r : Fin 8192) (hr : r.val = 256 * t.val + p.val) :
    (iblk m c 2 t : Vec Ideal S256x1024 .f32) (ix2 p k) = argC m c (ix2 r k) := by
  obtain ⟨-, -, -, -, e0, e1, -⟩ := idx_rows t
  unfold iblk
  rw [View.read_apply]
  show V m c main_arg2 _ = m ((c : Thread nD τ).loc main_arg2) _
  rw [V_main_arg2]
  refine congrArg (m ((c : Thread nD τ).loc main_arg2)) (funext fun a => Fin.ext ?_)
  match a with
  | ⟨0, _⟩ => show win0_2.index t (0 : Fin 2) * 256 + 1 * p.val = r.val; omega
  | ⟨1, _⟩ => show win0_2.index t (1 : Fin 2) * 1024 + 1 * k.val = k.val; omega

/-- Every point's block of the first weight operand is all of `Wx`. -/
theorem wxblk (c : Dev nD) (t : Fin cfg0.N) : (iblk m c 3 t : Vec Ideal S4096x1024 .bf16) = argWx m c := by
  obtain ⟨e0, e1, -⟩ := idx_whole t
  funext i
  unfold iblk
  rw [View.read_apply]
  show V m c main_call0_v0 _ = argWx m c i
  rw [V_wx]
  refine congrArg (argWx m c) (funext fun a => Fin.ext ?_)
  match a with
  | ⟨0, _⟩ => show win0_3.index t (0 : Fin 2) * 4096 + 1 * (i 0).val = (i 0).val; omega
  | ⟨1, _⟩ => show win0_3.index t (1 : Fin 2) * 1024 + 1 * (i 1).val = (i 1).val; omega

/-- Every point's block of the second weight operand is all of `Wh`. -/
theorem whblk (c : Dev nD) (t : Fin cfg0.N) : (iblk m c 4 t : Vec Ideal S4096x1024 .bf16) = argWh m c := by
  obtain ⟨-, -, e0, e1, -⟩ := idx_whole t
  funext i
  unfold iblk
  rw [View.read_apply]
  show V m c main_call0_v1 _ = argWh m c i
  rw [V_wh]
  refine congrArg (argWh m c) (funext fun a => Fin.ext ?_)
  match a with
  | ⟨0, _⟩ => show win0_4.index t (0 : Fin 2) * 4096 + 1 * (i 0).val = (i 0).val; omega
  | ⟨1, _⟩ => show win0_4.index t (1 : Fin 2) * 1024 + 1 * (i 1).val = (i 1).val; omega

/-- Every point's block of the bias row, lane by lane, is `b`. -/
theorem bblk (c : Dev nD) (t : Fin cfg0.N) : biasRow (iblk m c 5 t : Vec Ideal S1x4096 .f32) = biasOf (argB m c) := by
  obtain ⟨-, -, -, -, e0, e1⟩ := idx_whole t
  funext j
  show (iblk m c 5 t : Vec Ideal S1x4096 .f32) (ix2 (0 : Fin 1) j) = argB m c (ix1 j)
  unfold iblk
  rw [View.read_apply]
  show V m c main_call0_v2 _ = _
  rw [V_b]
  refine shapeCast_apply _ _ _ _ ?_
  rw [Shape.rowMajor_val_one, Shape.rowMajor_val_two]
  show j.val = (win0_5.index t (0 : Fin 2) * 1 + 1 * 0) * 4096 + (win0_5.index t (1 : Fin 2) * 4096 + 1 * j.val)
  omega

/-- The specification's results of the argument arrays. -/
abbrev cellOf (c : Dev nD) : S8192x1024.Idx → EReal :=
  cellArr (argX m c) (argH m c) (argC m c) (argWx m c) (argWh m c) (biasOf (argB m c))
abbrev hiddenOf (c : Dev nD) : S8192x1024.Idx → EReal :=
  hiddenArr (argX m c) (argH m c) (argC m c) (argWx m c) (argWh m c) (biasOf (argB m c))

/-- The batch row of row `p` of block `t`. -/
def rowOf (t : Fin cfg0.N) (p : Fin 256) : Fin 8192 := ⟨256 * t.val + p.val, by have := t.isLt; have := p.isLt; have : cfg0.N = 32 := N_0; omega⟩

/-- WHAT POINT `t` WRITES BACK to the second result: rows `256 t … 256 t + 255` of the new cell state of the whole
    arguments. -/
theorem flushed_cell (c : Dev nD) (t : Fin cfg0.N) :
    (dats m 0 c).flushed 7 t = ((cfg0.win 7).blk t).view.read (Elt Ideal) (cellOf m c) := by
  obtain ⟨-, -, -, -, -, -, -, -, e0, e1⟩ := idx_rows t
  rw [Value.flushed7, cell_block]
  funext j
  show cellArr (iblk m c 0 t) (iblk m c 1 t) (iblk m c 2 t) (iblk m c 3 t) (iblk m c 4 t) (biasRow (iblk m c 5 t)) j
    = cellOf m c (((cfg0.win 7).blk t).view.emb j)
  obtain ⟨p, q, rfl⟩ : ∃ (p : Fin 256) (q : Fin 1024), j = ix2 p q := ⟨j 0, j 1, eq_ix2 j⟩
  have hemb : ((cfg0.win 7).blk t).view.emb (ix2 p q) = (ix2 (rowOf t p) q : S8192x1024.Idx) := by
    funext a; apply Fin.ext
    match a with
    | ⟨0, _⟩ => show win0_7.index t (0 : Fin 2) * 256 + 1 * p.val = 256 * t.val + p.val; omega
    | ⟨1, _⟩ => show win0_7.index t (1 : Fin 2) * 1024 + 1 * q.val = q.val; omega
  rw [hemb, cellArr_ix2, wxblk, whblk, bblk]
  exact newCell_rows _ _ _ (fun k => xblk_apply m c t p k (rowOf t p) rfl) (fun k => hblk_apply m c t p k (rowOf t p) rfl) q
    (cblk_apply m c t p q (rowOf t p) rfl)

/-- WHAT POINT `t` WRITES BACK to the first result: rows `256 t … 256 t + 255` of the new hidden state of the whole
    arguments. -/
theorem flushed_hidden (c : Dev nD) (t : Fin cfg0.N) :
    (dats m 0 c).flushed 6 t = ((cfg0.win 6).blk t).view.read (Elt Ideal) (hiddenOf m c) := by
  obtain ⟨-, -, -, -, -, -, e0, e1, -⟩ := idx_rows t
  rw [Value.flushed6, hidden_block]
  funext j
  show hiddenArr (iblk m c 0 t) (iblk m c 1 t) (iblk m c 2 t) (iblk m c 3 t) (iblk m c 4 t) (biasRow (iblk m c 5 t)) j
    = hiddenOf m c (((cfg0.win 6).blk t).view.emb j)
  obtain ⟨p, q, rfl⟩ : ∃ (p : Fin 256) (q : Fin 1024), j = ix2 p q := ⟨j 0, j 1, eq_ix2 j⟩
  have hemb : ((cfg0.win 6).blk t).view.emb (ix2 p q) = (ix2 (rowOf t p) q : S8192x1024.Idx) := by
    funext a; apply Fin.ext
    match a with
    | ⟨0, _⟩ => show win0_6.index t (0 : Fin 2) * 256 + 1 * p.val = 256 * t.val + p.val; omega
    | ⟨1, _⟩ => show win0_6.index t (1 : Fin 2) * 1024 + 1 * q.val = q.val; omega
  rw [hemb, hiddenArr_ix2, wxblk, whblk, bblk]
  exact newHidden_rows _ _ _ (fun k => xblk_apply m c t p k (rowOf t p) rfl) (fun k => hblk_apply m c t p k (rowOf t p) rfl) q
    (cblk_apply m c t p q (rowOf t p) rfl)

/-- An index of the first result is in point `t`'s block iff each coordinate is in the block's range. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v0_0).slice (win0_6.rect t)).set ↔ _
  rw [View.set_slice_whole, Rect.mem_set_unit]
  exact Iff.rfl

/-- An index of the second result is in point `t`'s block iff each coordinate is in the block's range. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v0_1).slice (win0_7.rect t)).set ↔ _
  rw [View.set_slice_whole, Rect.mem_set_unit]
  exact Iff.rfl

/-- Every index of the first result is in the block of point `row / 256`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, e0, e1, -⟩ := idx_rows t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- Every index of the second result is in the block of point `row / 256`. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, e0, e1⟩ := idx_rows t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- After the run the first result array is the new hidden state. -/
theorem final_hidden (c : Dev nD) : (dats m 0 c).arrAt 6 cfg0.N = hiddenOf m c :=
  (dats m 0 c).arrAt_eq_of_cover 6 (hiddenOf m c) (fun t _ => flushed_hidden m c t) cover6

/-- After the run the second result array is the new cell state. -/
theorem final_cell (c : Dev nD) : (dats m 0 c).arrAt 7 cfg0.N = cellOf m c :=
  (dats m 0 c).arrAt_eq_of_cover 7 (cellOf m c) (fun t _ => flushed_cell m c t) cover7

/-- THE KERNEL'S RUN, read: it ends with the two results at the specification's new hidden state and new cell state of
    the arguments, the arguments unchanged. -/
theorem run : θ_run defs (onTc (τ := τ) (main (F := Ideal))) ⟨m, fun _ => 0, ρ⟩ fun r => ∀ c : Dev nD,
      r.2.mem ((c : Thread nD τ).loc main_v0_0) = hiddenOf m c
      ∧ r.2.mem ((c : Thread nD τ).loc main_v0_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_hidden m c), (h c).2.1.trans (final_cell m c), (h c).2.2⟩)
    (Value.run_blocks m ρ)

end Cert.LstmCell.Arr

end
-- ==== Proof.lean ====
/-
  An LSTM cell step: a Pallas kernel against its jnp reference, equal on the extended reals.

  Both programs compute, for batch row `r` and hidden unit `q`, from the stacked gate pre-activations
      pre[r, j] = (Σ_k x[r, k] · Wx[j, k]  +  Σ_k h[r, k] · Wh[j, k])  +  b[j]        (j = 0 … 4095: gates i, f, o, g),
      c'[r, q] = σ(pre[r, 1024 + q]) · c[r, q] + σ(pre[r, q]) · tanh(pre[r, 3072 + q]),
      h'[r, q] = σ(pre[r, 2048 + q]) · tanh(c'[r, q]),
  and return `(h', c')`. The reference forms all of `pre` with two matrix products against the transposed weights, slices
  the four gates out of it and spells σ as `1 / (1 + exp (−z))`; the kernel walks the batch in 32 blocks of 256 rows,
  casts the rows and the weights to bf16, takes each gate's 1024 weight rows and bias lanes, multiplies on the matrix
  unit into a zero accumulator, and applies the logistic operation. On the extended reals a change of float format is
  the identity, a matrix product into a zero accumulator is the sum of products, and the logistic operation IS
  `1 / (1 + exp (−z))`; the two programs add in the same order, so no law of arithmetic is needed beyond unfolding,
  and the precondition (finite inputs) is never used: the results are equal entry by entry for all extended reals.

  The specification is Proof/LstmSpec.lean; that the reference's results are the specification is Proof/RefGates.lean;
  that the kernel's body writes the specification of a block is Proof/KernelBlock.lean (over Proof/LibDotRows.lean, the
  matrix unit's product of rows against rows); that the blocks make up the arrays is Proof/KernelArray.lean. The three
  frames are the generated ones (the reference's is its generated run with the results dropped); the idealization
  rewrote nothing, so `preserves` is trivial.
-/
import proofs.«422115_j49967649521796_3_alg».proof.Defs
import proofs.«422115_j49967649521796_3_alg».proof.Proof.Gen.Kernel
import proofs.«422115_j49967649521796_3_alg».proof.Proof.Gen.Kernel.Skeleton
import proofs.«422115_j49967649521796_3_alg».proof.Proof.Gen.Kernel.Launch
import proofs.«422115_j49967649521796_3_alg».proof.Proof.Gen.Kernel.Points
import proofs.«422115_j49967649521796_3_alg».proof.Proof.Gen.Kernel.Frame
import proofs.«422115_j49967649521796_3_alg».proof.Proof.Gen.KernelIdeal
import proofs.«422115_j49967649521796_3_alg».proof.Proof.Gen.KernelIdeal.Skeleton
import proofs.«422115_j49967649521796_3_alg».proof.Proof.Gen.KernelIdeal.Launch
import proofs.«422115_j49967649521796_3_alg».proof.Proof.Gen.KernelIdeal.Points
import proofs.«422115_j49967649521796_3_alg».proof.Proof.Gen.KernelIdeal.Frame
import proofs.«422115_j49967649521796_3_alg».proof.Proof.Gen.ReferenceIdeal
import proofs.«422115_j49967649521796_3_alg».proof.Proof.Gen.Pre_finite_inputs
import proofs.«422115_j49967649521796_3_alg».proof.Proof.Gen.KernelIdeal.Value
import proofs.«422115_j49967649521796_3_alg».proof.Proof.Gen.ReferenceIdeal.Run
import proofs.«422115_j49967649521796_3_alg».proof.Proof.Gen.ReferenceIdeal.Read
import proofs.«422115_j49967649521796_3_alg».proof.Proof.RefGates
import proofs.«422115_j49967649521796_3_alg».proof.Proof.KernelArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, the kernel ends with `(h', c')` of the specification (the kernel's run, read) and
    so does the reference (its run, read stage by stage); the specification's arrays are functions of the arguments alone. -/
theorem algebraic : Cert.algebraic_KernelIdeal_ReferenceIdeal := by
  intro m ρ m' ρ' _ hagree
  refine ⟨fun c => Cert.LstmCell.Arr.hiddenOf m c, fun c => Cert.LstmCell.Arr.cellOf m c, Cert.LstmCell.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v35_eq _ _ _ _ _ _).trans ((Cert.LstmCell.Ref.hidden_eq _ _ _ _ _ _).trans ?_)
    rw [(hagree c).1, (hagree c).2.1, (hagree c).2.2.1, (hagree c).2.2.2.1, (hagree c).2.2.2.2.1, (hagree c).2.2.2.2.2]
  · refine (Cert.ReferenceIdeal.Read.val_main_v27_eq _ _ _ _ _ _).trans ((Cert.LstmCell.Ref.cell_eq _ _ _ _ _ _).trans ?_)
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
